-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S50000x128 .f32) (main_arg1 : IVec S2x500000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S128x256 : Shape := ⟨2, ![128, 256]⟩
abbrev S500000x256 : Shape := ⟨2, ![500000, 256]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .f32⟩
  | .hbm, ⟨22, _⟩ => ⟨S50000x128, .f32⟩
  | .hbm, ⟨23, _⟩ => ⟨S500000x1, .i32⟩
  | .hbm, ⟨24, _⟩ => ⟨S50000x128, .f32⟩
  | .hbm, ⟨25, _⟩ => ⟨S_, .f32⟩
  | .hbm, ⟨26, _⟩ => ⟨S500000, .f32⟩
  | .hbm, ⟨27, _⟩ => ⟨S_, .f32⟩
  | .hbm, ⟨28, _⟩ => ⟨S50000, .f32⟩
  | .hbm, ⟨29, _⟩ => ⟨S500000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x256, .f32⟩
  | .hbm, ⟨48, _⟩ => ⟨S_, .f32⟩
  | .hbm, ⟨49, _⟩ => ⟨S50000x256, .f32⟩
  | .hbm, ⟨50, _⟩ => ⟨S500000x1, .i32⟩
  | .hbm, ⟨51, _⟩ => ⟨S50000x256, .f32⟩
  | .hbm, ⟨52, _⟩ => ⟨S_, .f32⟩
  | .hbm, ⟨53, _⟩ => ⟨S500000, .f32⟩
  | .hbm, ⟨54, _⟩ => ⟨S_, .f32⟩
  | .hbm, ⟨55, _⟩ => ⟨S50000, .f32⟩
  | .hbm, ⟨56, _⟩ => ⟨S500000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x256, .f32⟩
  | .hbm, ⟨63, _⟩ => ⟨S50000x256, .f32⟩
  | .hbm, ⟨64, _⟩ => ⟨S1x256, .f32⟩
  | .hbm, ⟨65, _⟩ => ⟨S50000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x128, .f32⟩
  | .local _ .vmem, ⟨5, _⟩ => ⟨S1x256, .f32⟩
  | .local _ .vmem, ⟨6, _⟩ => ⟨S256x128, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S2000x128_S128x256_S2000x256_1_0_0_1_n_n_wf : DotDims.WF S2000x128 S128x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S256x128 : Shape := ⟨2, ![256, 128]⟩
abbrev S256 : Shape := ⟨1, ![256]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S50000 : Shape := ⟨1, ![50000]⟩
abbrev S50000x1 : Shape := ⟨2, ![50000, 1]⟩
abbrev S128x256 : Shape := ⟨2, ![128, 256]⟩
abbrev S50000x256 : Shape := ⟨2, ![50000, 256]⟩
abbrev S1x256 : Shape := ⟨2, ![1, 256]⟩
abbrev S500000x256 : Shape := ⟨2, ![500000, 256]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .f32⟩
  | .hbm, ⟨22, _⟩ => ⟨S50000x128, .f32⟩
  | .hbm, ⟨23, _⟩ => ⟨S500000x1, .i32⟩
  | .hbm, ⟨24, _⟩ => ⟨S50000x128, .f32⟩
  | .hbm, ⟨25, _⟩ => ⟨S_, .f32⟩
  | .hbm, ⟨26, _⟩ => ⟨S500000, .f32⟩
  | .hbm, ⟨27, _⟩ => ⟨S_, .f32⟩
  | .hbm, ⟨28, _⟩ => ⟨S50000, .f32⟩
  | .hbm, ⟨29, _⟩ => ⟨S500000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S128x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x256, .f32⟩
  | .hbm, ⟨57, _⟩ => ⟨S_, .f32⟩
  | .hbm, ⟨58, _⟩ => ⟨S50000x256, .f32⟩
  | .hbm, ⟨59, _⟩ => ⟨S500000x1, .i32⟩
  | .hbm, ⟨60, _⟩ => ⟨S50000x256, .f32⟩
  | .hbm, ⟨61, _⟩ => ⟨S_, .f32⟩
  | .hbm, ⟨62, _⟩ => ⟨S500000, .f32⟩
  | .hbm, ⟨63, _⟩ => ⟨S_, .f32⟩
  | .hbm, ⟨64, _⟩ => ⟨S50000, .f32⟩
  | .hbm, ⟨65, _⟩ => ⟨S500000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x256, .f32⟩
  | .hbm, ⟨74, _⟩ => ⟨S50000x256, .f32⟩
  | .hbm, ⟨75, _⟩ => ⟨S1x256, .f32⟩
  | .hbm, ⟨76, _⟩ => ⟨S50000x256, .f32⟩
  | .hbm, ⟨77, _⟩ => ⟨S50000x256, .f32⟩
  | .hbm, ⟨78, _⟩ => ⟨S256x256, .f32⟩
  | .hbm, ⟨79, _⟩ => ⟨S50000x256, .f32⟩
  | .hbm, ⟨80, _⟩ => ⟨S50000x256, .f32⟩
  | .hbm, ⟨81, _⟩ => ⟨S_, .f32⟩
  | .hbm, ⟨82, _⟩ => ⟨S50000x256, .f32⟩
  | .hbm, ⟨83, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S256x256_S256x256_1_0 : S256x256.Transposes [1, 0] S256x256
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  dot_S50000x128_S128x256_S50000x256_1_0_0_1_n_n_wf : DotDims.WF S50000x128 S128x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  dot_S50000x256_S256x256_S50000x256_1_0_0_1_n_n_wf : DotDims.WF S50000x256 S256x256 S50000x256 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.MeanAgg.lean ====
/-
  The neighbourhood mean both programs compute on the host before each layer, named once.

  From the edge list (2 × 500000 integers: row 0 the source nodes, row 1 the destination nodes) and a feature array h,
  gather h at the edges' sources (a negative source index first moved up by the node count), add each gathered row
  into its destination node's row, count the edges arriving at each node the same way, and divide each node's row by
  max(count, 1).  The operations are kept as the host's own; nothing here opens them.
-/
import proofs.«128896_j30794915512417_1_alg».proof.Proof.Gen.KernelIdeal
import Idealize.ShloMosaic.PureOps.Ideal

noncomputable section

namespace Cert.KernelIdeal.Sage

open Idealize.ShloMosaic Cert.KernelIdeal Cert.KernelIdeal.Facts₀ Cert.KernelIdeal.Facts

/-- Row 0 of the edge list, as a vector: the source node of each edge. -/
def srcOf (ei : (⟨S2x500000, .i32⟩ : BufTy).Contents (Elt Ideal)) : (⟨S500000, .i32⟩ : BufTy).Contents (Elt Ideal) :=
  shapeCast _ (extractStridedSlice S1x500000 ![0, 0] ei slices_S2x500000_S1x500000_0_0) shapeCasts_S1x500000_S500000

/-- Row 1 of the edge list, as a vector: the destination node of each edge. -/
def dstOf (ei : (⟨S2x500000, .i32⟩ : BufTy).Contents (Elt Ideal)) : (⟨S500000, .i32⟩ : BufTy).Contents (Elt Ideal) :=
  shapeCast _ (extractStridedSlice S1x500000 ![1, 0] ei slices_S2x500000_S1x500000_1_0) shapeCasts_S1x500000_S500000

/-- The source indices as the gather takes them: a negative index moved up by 50000, as a column. -/
def srcCol (src : (⟨S500000, .i32⟩ : BufTy).Contents (Elt Ideal)) : (⟨S500000x1, .i32⟩ : BufTy).Contents (Elt Ideal) :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 50000#32))) src)

/-- Each node's edge count, at least 1. -/
def degree (dst : (⟨S500000, .i32⟩ : BufTy).Contents (Elt Ideal)) : FVec Ideal S50000 .f32 :=
  maximumf (F := Ideal) (Host.scatterAdd (F := Ideal) scatter_S50000_S500000x1_S500000_n_0_0_1
      (broadcastInDim S50000 ![] bcast_S_S50000 (constant (F := Ideal) S_ .f32 0x00000000#32))
      (broadcastInDim S500000x1 ![0] bcast_S500000_S500000x1_0 dst)
      (broadcastInDim S500000 ![] bcast_S_S500000 (constant (F := Ideal) S_ .f32 0x3F800000#32)))
    (broadcastInDim S50000 ![] bcast_S_S50000 (constant (F := Ideal) S_ .f32 0x3F800000#32))

/-- The neighbourhood mean of a 50000 × 128 feature array. -/
def meanAgg128 (x : FVec Ideal S50000x128 .f32) (src dst : (⟨S500000, .i32⟩ : BufTy).Contents (Elt Ideal)) :
    FVec Ideal S50000x128 .f32 :=
  Host.divf (F := Ideal)
    (Host.scatterAdd (F := Ideal) scatter_S50000x128_S500000x1_S500000x128_1_0_0_1
      (broadcastInDim S50000x128 ![] bcast_S_S50000x128 (constant (F := Ideal) S_ .f32 0x00000000#32))
      (broadcastInDim S500000x1 ![0] bcast_S500000_S500000x1_0 dst)
      (Host.gather gather_S50000x128_S500000x1_S500000x128_1_0_n_n_0_1_1128 x (srcCol src)))
    (broadcastInDim S50000x128 ![0, 1] bcast_S50000x1_S50000x128_0_1
      (broadcastInDim S50000x1 ![0] bcast_S50000_S50000x1_0 (degree dst)))

/-- The neighbourhood mean of a 50000 × 256 feature array. -/
def meanAgg256 (h : FVec Ideal S50000x256 .f32) (src dst : (⟨S500000, .i32⟩ : BufTy).Contents (Elt Ideal)) :
    FVec Ideal S50000x256 .f32 :=
  Host.divf (F := Ideal)
    (Host.scatterAdd (F := Ideal) scatter_S50000x256_S500000x1_S500000x256_1_0_0_1
      (broadcastInDim S50000x256 ![] bcast_S_S50000x256 (constant (F := Ideal) S_ .f32 0x00000000#32))
      (broadcastInDim S500000x1 ![0] bcast_S500000_S500000x1_0 dst)
      (Host.gather gather_S50000x256_S500000x1_S500000x256_1_0_n_n_0_1_1256 h (srcCol src)))
    (broadcastInDim S50000x256 ![0, 1] bcast_S50000x1_S50000x256_0_1
      (broadcastInDim S50000x1 ![0] bcast_S50000_S50000x1_0 (degree dst)))

end Cert.KernelIdeal.Sage

end
-- ==== Proof.HostChain.lean ====
/-
  What the kernel program's host operations leave in the buffers the two pallas_calls read, at the extended reals.

  Before the first call: the neighbourhood mean of the input features, the arguments themselves, and the first bias
  as one row.  Between the calls: the neighbourhood mean of what the first call wrote, that array itself, the second
  layer's arguments, and the second bias as one row.  The edge list's two rows are cut out once, before the first
  call, and the second stretch reads those same two vectors.
-/
import proofs.«128896_j30794915512417_1_alg».proof.Proof.Gen.KernelIdeal.Frame
import proofs.«128896_j30794915512417_1_alg».proof.Proof.MeanAgg

set_option maxRecDepth 16384

noncomputable section

namespace Cert.KernelIdeal.Sage

open Idealize.ShloMosaic Idealize.ShloMosaic.TcCoe Cert.KernelIdeal Cert.KernelIdeal.Gen
open Idealize.ShloMosaic.StableHlo
open Idealize.SL.Sem

variable (m : (ℓ : Loc nD τ sig) → Buf (Elt Ideal) ℓ) (ρ : Dev nD → PrngReg)

/-! ## At the first call's entry -/

theorem V1_agg (c : Dev nD) :
    V1 m ρ c main_v22 = meanAgg128 (m ((c : Thread nD τ).loc main_arg0))
      (srcOf (m ((c : Thread nD τ).loc main_arg1))) (dstOf (m ((c : Thread nD τ).loc main_arg1))) := by
  show StableHlo.after hostOps0 (W0 m ρ c) (Proc.devRef .tc main_v22) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp

theorem V1_arg2 (c : Dev nD) : V1 m ρ c main_arg2 = m ((c : Thread nD τ).loc main_arg2) := by
  show StableHlo.after hostOps0 (W0 m ρ c) (Proc.devRef .tc main_arg2) = _
  after_results_simp

theorem V1_arg4 (c : Dev nD) : V1 m ρ c main_arg4 = m ((c : Thread nD τ).loc main_arg4) := by
  show StableHlo.after hostOps0 (W0 m ρ c) (Proc.devRef .tc main_arg4) = _
  after_results_simp

theorem V1_bias (c : Dev nD) :
    V1 m ρ c main_v23 = shapeCast _ (m ((c : Thread nD τ).loc main_arg3)) Facts₀.shapeCasts_S256_S1x256 := by
  show StableHlo.after hostOps0 (W0 m ρ c) (Proc.devRef .tc main_v23) = _
  after_results_simp
  rfl

/-! ## The edge list's rows and the second layer's arguments, as the first stretch leaves them -/

theorem W1_src (c : Dev nD) : W1 m ρ c (Proc.devRef .tc main_v1) = srcOf (m ((c : Thread nD τ).loc main_arg1)) := by
  show StableHlo.after hostOps0 (W0 m ρ c) (Proc.devRef .tc main_v1) = _
  after_results_simp
  rfl

theorem W1_dst (c : Dev nD) : W1 m ρ c (Proc.devRef .tc main_v3) = dstOf (m ((c : Thread nD τ).loc main_arg1)) := by
  show StableHlo.after hostOps0 (W0 m ρ c) (Proc.devRef .tc main_v3) = _
  after_results_simp
  rfl

theorem W1_arg5 (c : Dev nD) : W1 m ρ c (Proc.devRef .tc main_arg5) = m ((c : Thread nD τ).loc main_arg5) := by
  show StableHlo.after hostOps0 (W0 m ρ c) (Proc.devRef .tc main_arg5) = _
  after_results_simp

theorem W1_arg6 (c : Dev nD) : W1 m ρ c (Proc.devRef .tc main_arg6) = m ((c : Thread nD τ).loc main_arg6) := by
  show StableHlo.after hostOps0 (W0 m ρ c) (Proc.devRef .tc main_arg6) = _
  after_results_simp

theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## At the second call's entry -/

theorem V3_agg (c : Dev nD) :
    V3 m ρ c main_v43 = meanAgg256 (W2 m ρ c (Proc.devRef .tc main_v24))
      (srcOf (m ((c : Thread nD τ).loc main_arg1))) (dstOf (m ((c : Thread nD τ).loc main_arg1))) := by
  show StableHlo.after hostOps1 (W2 m ρ c) (Proc.devRef .tc main_v43) = _
  after_results_simp
  rw [W2_of_ne m ρ c main_v1 (by decide), W2_of_ne m ρ c main_v3 (by decide), W1_src, W1_dst]
  rfl

theorem V3_hidden (c : Dev nD) : V3 m ρ c main_v24 = W2 m ρ c (Proc.devRef .tc main_v24) := by
  show StableHlo.after hostOps1 (W2 m ρ c) (Proc.devRef .tc main_v24) = _
  after_results_simp

theorem V3_arg5 (c : Dev nD) : V3 m ρ c main_arg5 = m ((c : Thread nD τ).loc main_arg5) := by
  show StableHlo.after hostOps1 (W2 m ρ c) (Proc.devRef .tc main_arg5) = _
  after_results_simp
  rw [W2_of_ne m ρ c main_arg5 (by decide), W1_arg5]

theorem V3_arg7 (c : Dev nD) : V3 m ρ c main_arg7 = m ((c : Thread nD τ).loc main_arg7) := by
  show StableHlo.after hostOps1 (W2 m ρ c) (Proc.devRef .tc main_arg7) = _
  after_results_simp
  rw [W2_of_ne m ρ c main_arg7 (by decide), W1_arg7]

theorem V3_bias (c : Dev nD) :
    V3 m ρ c main_v44 = shapeCast _ (m ((c : Thread nD τ).loc main_arg6)) Facts₀.shapeCasts_S256_S1x256 := by
  show StableHlo.after hostOps1 (W2 m ρ c) (Proc.devRef .tc main_v44) = _
  after_results_simp
  rw [W2_of_ne m ρ c main_arg6 (by decide), W1_arg6]
  rfl

end Cert.KernelIdeal.Sage

end
-- ==== Proof.SageSpec.lean ====
/-
  One GraphSAGE layer with its ReLU, entry by entry, on the extended reals.

  For node features `a` (the neighbourhood mean) and `x` (the node's own features), both n × d, weights `wl`, `wr`,
  both h × d, and a bias `b` of length h, the layer's entry at node r and output feature j is

      max ( (Σ_k a[r,k] · wl[j,k]  +  b[j])  +  Σ_k x[r,k] · wr[j,k] ,  0 ).

  The sums run over the d input features; the weights enter transposed (row j of `wl` against row r of `a`).
  The additions are grouped as written: first the bias onto the left product, then the right product.
-/
import Idealize.ShloMosaic.PureOps.Ideal
import Idealize.ShloMosaic.Lib.ValueIdx

noncomputable section

open scoped BigOperators

namespace Cert.Sage

open Idealize.ShloMosaic Idealize.ShloMosaic.ValueIdx

/-- Entry (r, j) of the layer: the two feature sums against rows j of the weights, the bias, the ReLU. -/
def layerAt {d : ℕ} (arow xrow wlrow wrrow : Fin d → EReal) (bj : EReal) : EReal :=
  max ((∑ k : Fin d, arow k * wlrow k + bj) + ∑ k : Fin d, xrow k * wrrow k) 0

/-- The layer as a whole n × h array. -/
def layer {n d h : ℕ} (a x : (⟨2, ![n, d]⟩ : Shape).Idx → EReal) (wl wr : (⟨2, ![h, d]⟩ : Shape).Idx → EReal)
    (b : Fin h → EReal) : (⟨2, ![n, h]⟩ : Shape).Idx → EReal :=
  fun i => layerAt (fun k => a (ix2 (i 0) k)) (fun k => x (ix2 (i 0) k))
    (fun k => wl (ix2 (i 1) k)) (fun k => wr (ix2 (i 1) k)) (b (i 1))

/-- The layer read at explicit coordinates. -/
theorem layer_ix2 {n d h : ℕ} (a x : (⟨2, ![n, d]⟩ : Shape).Idx → EReal) (wl wr : (⟨2, ![h, d]⟩ : Shape).Idx → EReal)
    (b : Fin h → EReal) (r : Fin n) (j : Fin h) :
    layer a x wl wr b (ix2 r j) = layerAt (fun k => a (ix2 r k)) (fun k => x (ix2 r k))
      (fun k => wl (ix2 j k)) (fun k => wr (ix2 j k)) (b j) := rfl

/-- Two entries of two layers agree when the rows they read agree: the node's rows of the two feature arrays, the
    output feature's rows of the two weights, and the bias entry. -/
theorem layer_congr {n n' d h h' : ℕ}
    (a x : (⟨2, ![n, d]⟩ : Shape).Idx → EReal) (wl wr : (⟨2, ![h, d]⟩ : Shape).Idx → EReal) (b : Fin h → EReal)
    (a' x' : (⟨2, ![n', d]⟩ : Shape).Idx → EReal) (wl' wr' : (⟨2, ![h', d]⟩ : Shape).Idx → EReal) (b' : Fin h' → EReal)
    (i : (⟨2, ![n, h]⟩ : Shape).Idx) (i' : (⟨2, ![n', h']⟩ : Shape).Idx)
    (ha : ∀ k, a (ix2 (i 0) k) = a' (ix2 (i' 0) k)) (hx : ∀ k, x (ix2 (i 0) k) = x' (ix2 (i' 0) k))
    (hwl : ∀ k, wl (ix2 (i 1) k) = wl' (ix2 (i' 1) k)) (hwr : ∀ k, wr (ix2 (i 1) k) = wr' (ix2 (i' 1) k))
    (hb : b (i 1) = b' (i' 1)) :
    layer a x wl wr b i = layer a' x' wl' wr' b' i' := by
  unfold layer
  rw [funext ha, funext hx, funext hwl, funext hwr, hb]

end Cert.Sage

end
-- ==== Proof.Payload0.lean ====
/-
  The first layer's kernel body on one block of 2000 nodes, at the extended reals, is the layer of SageSpec on that block.

  The body rounds both matmul operands to bf16 (the identity on extended reals), transposes each 256 × 128 weight
  block to 128 × 256 and multiplies into a zero accumulator, so entry (p, q) of a product is Σ_k A[p,k] · W[q,k]:
  the transposed weight read at (k, q) is the weight at (q, k).  The 1 × 256 bias block is broadcast down the rows,
  and the maximum with the zero splat is the ReLU.
-/
import proofs.«128896_j30794915512417_1_alg».proof.Proof.Gen.KernelIdeal.Skeleton
import proofs.«128896_j30794915512417_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Sage

open Idealize.ShloMosaic Idealize.ShloMosaic.ValueIdx Cert.KernelIdeal Cert.KernelIdeal.Gen

/-! ## The operand indices of the 2000 × 128 by 128 × 256 product -/

theorem lhs0_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs0_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs0_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs0_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A block of features times a transposed weight block, into zero: entry (p, q) is the sum over the 128 input
    features of the block's row p against the weight's row q. -/
theorem matmulT0_apply (A : Vec Ideal S2000x128 .f32) (W : Vec Ideal S256x128 .f32) (p : Fin 2000) (q : Fin 256) :
    matmul (F := Ideal) dot_S2000x128_S128x256_S2000x256_1_0_0_1_n_n none (truncf .bf16 A bitsLt_bf16_f32)
        (transpose S128x256 [1, 0] (truncf .bf16 W bitsLt_bf16_f32) transposes_S256x128_p1_0_S128x256)
        (constant S2000x256 .f32 0x00000000#32) (ix2 p q)
      = ∑ k : Fin 128, A (ix2 p k) * W (ix2 q k) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_0 _ _
    | ⟨1, _⟩ => exact (lhs0_1 _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_0 _ _).trans hk
    | ⟨1, _⟩ => exact rhs0_1 _ _)
  rw [el, er]
  have ht : transpose S128x256 [1, 0] (truncf (F := Ideal) .bf16 W bitsLt_bf16_f32) transposes_S256x128_p1_0_S128x256 (ix2 k q) = W (ix2 q k) :=
    transpose_ix2_apply (a := 256) (b := 128) (truncf (F := Ideal) .bf16 W bitsLt_bf16_f32) transposes_S256x128_p1_0_S128x256 k q
  rw [ht]
  rfl

/-- The bias block, one row of 256, broadcast over the 2000 rows: entry (p, q) is the bias at q. -/
theorem biasRow0_apply (b : Vec Ideal S1x256 .f32) (p : Fin 2000) (q : Fin 256) :
    broadcastTo S2000x256 (shapeCast S1x256 b shapeCasts_S1x256_S1x256) broadcasts_S1x256_S2000x256 (ix2 p q) = b (ix2 0 q) := by
  rw [shapeCast_self]
  exact broadcastTo_apply b broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The body's stored value, from the five blocks it loads, is the layer on those blocks
    (the bias block is 1 × 256: its one row). -/
theorem pay0_eq (agg x : Vec Ideal S2000x128 .f32) (wl wr : Vec Ideal S256x128 .f32) (b : Vec Ideal S1x256 .f32) :
    k0_pay1 (F := Ideal) agg wl x wr b = Cert.Sage.layer agg x wl wr (fun q => b (ix2 0 q)) := by
  funext j
  obtain ⟨p, q, rfl⟩ : ∃ (p : Fin 2000) (q : Fin 256), j = ix2 p q := ⟨j 0, j 1, eq_ix2 j⟩
  rw [Cert.Sage.layer_ix2]
  unfold k0_pay1 Cert.Sage.layerAt
  dsimp only
  rw [maximumf_apply, addf_apply, addf_apply, shapeCast_self agg, matmulT0_apply, matmulT0_apply, biasRow0_apply]
  show max _ (Ideal.ofBits .f32 0x00000000#32) = _
  rw [Ideal.ofBits_zero_f32]

end Cert.KernelIdeal.Sage

end
-- ==== Proof.Region0.lean ====
/-
  The first pallas_call, whatever the buffers hold when it is entered: its output array ends as the layer of SageSpec
  applied to the arrays its five input windows read.

  The grid has 25 points; point t works on nodes 2000·t … 2000·t + 1999.  The two feature windows and the output
  window move down the node axis with t; the two weight windows and the bias window stay on their whole arrays.
  So what point t writes back is rows 2000·t … of the layer of the whole arrays, and the 25 blocks tile the output.
-/
import proofs.«128896_j30794915512417_1_alg».proof.Proof.Gen.KernelIdeal.Frame
import proofs.«128896_j30794915512417_1_alg».proof.Proof.Payload0

set_option maxRecDepth 16384

noncomputable section

open scoped BigOperators

namespace Cert.KernelIdeal.Sage

open Idealize.ShloMosaic Idealize.ShloMosaic.TcCoe Idealize.ShloMosaic.ValueIdx Cert.KernelIdeal Cert.KernelIdeal.Gen
open Idealize.SL.Sem

theorem hz2 : (![0, 0] : Fin 2 → Nat) = fun _ => 0 := funext fun a => by fin_cases a <;> rfl

/-- The printed index maps, decided over the grid: the feature windows sit on the output window's row block and on
    column block 0; the weight and bias windows on block (0, 0); the output window on column block 0. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every row block of the output is some point's. -/
theorem idx_onto0 : ∀ q0 : Fin 25, ∃ t : Fin cfg0.N, win0_5.index t = ![q0.val, 0] :=
  (by decide +kernel : ∀ q0 : Fin 25, ∃ t : Fin grid0.N, win0_5.index t = ![q0.val, 0])

variable (V : (c : Dev nD) → (b : Ref sig .tc) → Buf (Elt Ideal) ((c : Thread nD τ).loc b))

/-- The arrays the region reads, at their literal types. -/
abbrev arrAgg0 (c : Dev nD) : Vec Ideal S50000x128 .f32 := V c main_v22
abbrev arrX0 (c : Dev nD) : Vec Ideal S50000x128 .f32 := V c main_arg0
abbrev arrWl0 (c : Dev nD) : Vec Ideal S256x128 .f32 := V c main_arg2
abbrev arrB0 (c : Dev nD) : Vec Ideal S1x256 .f32 := V c main_v23
abbrev arrWr0 (c : Dev nD) : Vec Ideal S256x128 .f32 := V c main_arg4
/-- Their blocks at a point, at their literal types. -/
abbrev blkAgg0 (c : Dev nD) (t : Fin cfg0.N) : Vec Ideal S2000x128 .f32 := iblk0 V c 0 t
abbrev blkX0 (c : Dev nD) (t : Fin cfg0.N) : Vec Ideal S2000x128 .f32 := iblk0 V c 1 t
abbrev blkWl0 (c : Dev nD) (t : Fin cfg0.N) : Vec Ideal S256x128 .f32 := iblk0 V c 2 t
abbrev blkB0 (c : Dev nD) (t : Fin cfg0.N) : Vec Ideal S1x256 .f32 := iblk0 V c 3 t
abbrev blkWr0 (c : Dev nD) (t : Fin cfg0.N) : Vec Ideal S256x128 .f32 := iblk0 V c 4 t

/-- What the region leaves in its output array: the layer of the five arrays. -/
abbrev G0 (c : Dev nD) : Vec Ideal S50000x256 .f32 :=
  Cert.Sage.layer (arrAgg0 V c) (arrX0 V c) (arrWl0 V c) (arrWr0 V c) (fun q => arrB0 V c (ix2 0 q))

/-- The body's result at a point is the layer of the five blocks. -/
theorem out0_eq (c : Dev nD) (t : Fin cfg0.N) :
    out0_5 (F := Ideal) (iblk0 V c 0 t) (iblk0 V c 1 t) (iblk0 V c 2 t) (iblk0 V c 3 t) (iblk0 V c 4 t)
      = Cert.Sage.layer (blkAgg0 V c t) (blkX0 V c t) (blkWl0 V c t) (blkWr0 V c t) (fun q => blkB0 V c t (ix2 0 q)) := by
  unfold out0_5
  rw [View.canon_unit_zero hz2]
  simp only [View.ld_unit_zero (S := S2000x128) hz2, View.ld_unit_zero (S := S256x128) hz2, View.ld_unit_zero (S := S1x256) hz2]
  exact pay0_eq _ _ _ _ _

/-- WHAT POINT t WRITES BACK is block t of the layer of the arrays. -/
theorem flushed0_eq (c : Dev nD) (t : Fin cfg0.N) :
    (dat0 (F := Ideal) V c).flushed 5 t = ((cfg0.win 5).blk t).view.read (Elt Ideal) (G0 V c) := by
  show (cfg0.win 5).cut (grid0.coords t) ((dat0 V c).after 5 t) = _
  rw [after0_5, out0_eq]
  obtain ⟨e00, e01, e10, e11, e20, e21, e30, e31, e40, e41, e51⟩ := idx_facts0 t
  funext j
  show Cert.Sage.layer (blkAgg0 V c t) (blkX0 V c t) (blkWl0 V c t) (blkWr0 V c t) (fun q => blkB0 V c t (ix2 0 q)) j
    = G0 V c (((cfg0.win 5).blk t).view.emb j)
  have hj0 : (j 0).val < 2000 := (j 0).isLt
  have hj1 : (j 1).val < 256 := (j 1).isLt
  refine Cert.Sage.layer_congr _ _ _ _ _ _ _ _ _ _ j (((cfg0.win 5).blk t).view.emb j) ?_ ?_ ?_ ?_ ?_
  · intro k
    show V c main_v22 (((cfg0.win 0).blk t).view.emb (ix2 (j 0) k)) = V c main_v22 (ix2 ((((cfg0.win 5).blk t).view.emb j) 0) k)
    refine congrArg _ (funext fun a => Fin.ext ?_)
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k
    show V c main_arg0 (((cfg0.win 1).blk t).view.emb (ix2 (j 0) k)) = V c main_arg0 (ix2 ((((cfg0.win 5).blk t).view.emb j) 0) k)
    refine congrArg _ (funext fun a => Fin.ext ?_)
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · intro k
    show V c main_arg2 (((cfg0.win 2).blk t).view.emb (ix2 (j 1) k)) = V c main_arg2 (ix2 ((((cfg0.win 5).blk t).view.emb j) 1) k)
    refine congrArg _ (funext fun a => Fin.ext ?_)
    match a with
    | ⟨0, _⟩ => show win0_2.index t (0 : Fin 2) * 256 + 1 * (j 1).val = win0_5.index t (1 : Fin 2) * 256 + 1 * (j 1).val; omega
    | ⟨1, _⟩ => show win0_2.index t (1 : Fin 2) * 128 + 1 * k.val = k.val; omega
  · intro k
    show V c main_arg4 (((cfg0.win 4).blk t).view.emb (ix2 (j 1) k)) = V c main_arg4 (ix2 ((((cfg0.win 5).blk t).view.emb j) 1) k)
    refine congrArg _ (funext fun a => Fin.ext ?_)
    match a with
    | ⟨0, _⟩ => show win0_4.index t (0 : Fin 2) * 256 + 1 * (j 1).val = win0_5.index t (1 : Fin 2) * 256 + 1 * (j 1).val; omega
    | ⟨1, _⟩ => show win0_4.index t (1 : Fin 2) * 128 + 1 * k.val = k.val; omega
  · show V c main_v23 (((cfg0.win 3).blk t).view.emb (ix2 0 (j 1))) = V c main_v23 (ix2 0 ((((cfg0.win 5).blk t).view.emb j) 1))
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega

/-- An index of the output array is in point t's block iff each coordinate is in the block's range on its axis. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The 25 blocks tile the output: node r is in the block of point r / 2000. -/
theorem cover0 (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE OUTPUT ARRAY after the region: the layer of the arrays its windows read, as the region found them. -/
theorem region0_final (c : Dev nD) :
    (dat0 (F := Ideal) V c).arrAt 5 cfg0.N
      = Cert.Sage.layer (V c main_v22) (V c main_arg0) (V c main_arg2) (V c main_arg4) (fun q => V c main_v23 (ix2 0 q)) :=
  (dat0 (F := Ideal) V c).arrAt_eq_of_cover 5 (G0 V c) (fun t _ => flushed0_eq V c t) cover0

end Cert.KernelIdeal.Sage

end
-- ==== Proof.Payload1.lean ====
/-
  The second layer's kernel body on one block of 2000 nodes, at the extended reals, is the layer of SageSpec on that
  block, now with 256 input features.

  As in the first layer: both matmul operands are rounded to bf16 (the identity on extended reals), each 256 × 256
  weight block is transposed before it is multiplied into a zero accumulator, so entry (p, q) of a product is
  Σ_k A[p,k] · W[q,k]; the 1 × 256 bias block is broadcast down the rows; the maximum with the zero splat is the ReLU.
-/
import proofs.«128896_j30794915512417_1_alg».proof.Proof.Gen.KernelIdeal.Skeleton
import proofs.«128896_j30794915512417_1_alg».proof.Proof.SageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Sage

open Idealize.ShloMosaic Idealize.ShloMosaic.ValueIdx Cert.KernelIdeal Cert.KernelIdeal.Gen

/-! ## The operand indices of the 2000 × 256 by 256 × 256 product -/

theorem lhs1_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs1_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs1_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs1_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- A block of hidden features times a transposed weight block, into zero: entry (p, q) is the sum over the 256
    input features of the block's row p against the weight's row q. -/
theorem matmulT1_apply (A : Vec Ideal S2000x256 .f32) (W : Vec Ideal S256x256 .f32) (p : Fin 2000) (q : Fin 256) :
    matmul (F := Ideal) dot_S2000x256_S256x256_S2000x256_1_0_0_1_n_n none (truncf .bf16 A bitsLt_bf16_f32)
        (transpose S256x256 [1, 0] (truncf .bf16 W bitsLt_bf16_f32) transposes_S256x256_p1_0_S256x256)
        (constant S2000x256 .f32 0x00000000#32) (ix2 p q)
      = ∑ k : Fin 256, A (ix2 p k) * W (ix2 q k) := by
  simp only [matmul]
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx (ix2 p q) ((contrEquiv1 dot_S2000x256_S256x256_S2000x256_1_0_0_1_n_n 256 rfl rfl).symm k) = ix2 p k := funext fun a => Fin.ext (by
    match a with
    | ⟨0, _⟩ => exact lhs1_0 _ _
    | ⟨1, _⟩ => exact (lhs1_1 _ _).trans hk)
  have er : dot_S2000x256_S256x256_S2000x256_1_0_0_1_n_n.rhsIdx (ix2 p q) ((contrEquiv1 dot_S2000x256_S256x256_S2000x256_1_0_0_1_n_n 256 rfl rfl).symm k) = ix2 k q := funext fun a => Fin.ext (by
    match a with
    | ⟨0, _⟩ => exact (rhs1_0 _ _).trans hk
    | ⟨1, _⟩ => exact rhs1_1 _ _)
  rw [el, er]
  have ht : transpose S256x256 [1, 0] (truncf (F := Ideal) .bf16 W bitsLt_bf16_f32) transposes_S256x256_p1_0_S256x256 (ix2 k q) = W (ix2 q k) :=
    transpose_ix2_apply (a := 256) (b := 256) (truncf (F := Ideal) .bf16 W bitsLt_bf16_f32) transposes_S256x256_p1_0_S256x256 k q
  rw [ht]
  rfl

/-- The bias block, one row of 256, broadcast over the 2000 rows: entry (p, q) is the bias at q. -/
theorem biasRow1_apply (b : Vec Ideal S1x256 .f32) (p : Fin 2000) (q : Fin 256) :
    broadcastTo S2000x256 (shapeCast S1x256 b shapeCasts_S1x256_S1x256) broadcasts_S1x256_S2000x256 (ix2 p q) = b (ix2 0 q) := by
  rw [shapeCast_self]
  exact broadcastTo_apply b broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- The body's stored value, from the five blocks it loads, is the layer on those blocks
    (the bias block is 1 × 256: its one row). -/
theorem pay1_eq (agg x : Vec Ideal S2000x256 .f32) (wl wr : Vec Ideal S256x256 .f32) (b : Vec Ideal S1x256 .f32) :
    k1_pay1 (F := Ideal) agg wl x wr b = Cert.Sage.layer agg x wl wr (fun q => b (ix2 0 q)) := by
  funext j
  obtain ⟨p, q, rfl⟩ : ∃ (p : Fin 2000) (q : Fin 256), j = ix2 p q := ⟨j 0, j 1, eq_ix2 j⟩
  rw [Cert.Sage.layer_ix2]
  unfold k1_pay1 Cert.Sage.layerAt
  dsimp only
  rw [maximumf_apply, addf_apply, addf_apply, shapeCast_self agg, shapeCast_self x, matmulT1_apply, matmulT1_apply, biasRow1_apply]
  show max _ (Ideal.ofBits .f32 0x00000000#32) = _
  rw [Ideal.ofBits_zero_f32]

end Cert.KernelIdeal.Sage

end
-- ==== Proof.Region1.lean ====
/-
  The second pallas_call, whatever the buffers hold when it is entered: its output array ends as the layer of SageSpec
  applied to the arrays its five input windows read, now with 256 input features.

  The grid again has 25 points; point t works on nodes 2000·t … 2000·t + 1999.  The two feature windows and the output
  window move down the node axis with t; the two weight windows and the bias window stay on their whole arrays.
  So what point t writes back is rows 2000·t … of the layer of the whole arrays, and the 25 blocks tile the output.
-/
import proofs.«128896_j30794915512417_1_alg».proof.Proof.Gen.KernelIdeal.Frame
import proofs.«128896_j30794915512417_1_alg».proof.Proof.Payload1

set_option maxRecDepth 16384

noncomputable section

open scoped BigOperators

namespace Cert.KernelIdeal.Sage

open Idealize.ShloMosaic Idealize.ShloMosaic.TcCoe Idealize.ShloMosaic.ValueIdx Cert.KernelIdeal Cert.KernelIdeal.Gen
open Idealize.SL.Sem

theorem hz2' : (![0, 0] : Fin 2 → Nat) = fun _ => 0 := funext fun a => by fin_cases a <;> rfl

/-- The printed index maps, decided over the grid: the feature windows sit on the output window's row block and on
    column block 0; the weight and bias windows on block (0, 0); the output window on column block 0. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every row block of the output is some point's. -/
theorem idx_onto1 : ∀ q0 : Fin 25, ∃ t : Fin cfg1.N, win1_5.index t = ![q0.val, 0] :=
  (by decide +kernel : ∀ q0 : Fin 25, ∃ t : Fin grid1.N, win1_5.index t = ![q0.val, 0])

variable (V : (c : Dev nD) → (b : Ref sig .tc) → Buf (Elt Ideal) ((c : Thread nD τ).loc b))

/-- The arrays the region reads, at their literal types. -/
abbrev arrAgg1 (c : Dev nD) : Vec Ideal S50000x256 .f32 := V c main_v43
abbrev arrX1 (c : Dev nD) : Vec Ideal S50000x256 .f32 := V c main_v24
abbrev arrWl1 (c : Dev nD) : Vec Ideal S256x256 .f32 := V c main_arg5
abbrev arrB1 (c : Dev nD) : Vec Ideal S1x256 .f32 := V c main_v44
abbrev arrWr1 (c : Dev nD) : Vec Ideal S256x256 .f32 := V c main_arg7
/-- Their blocks at a point, at their literal types. -/
abbrev blkAgg1 (c : Dev nD) (t : Fin cfg1.N) : Vec Ideal S2000x256 .f32 := iblk1 V c 0 t
abbrev blkX1 (c : Dev nD) (t : Fin cfg1.N) : Vec Ideal S2000x256 .f32 := iblk1 V c 1 t
abbrev blkWl1 (c : Dev nD) (t : Fin cfg1.N) : Vec Ideal S256x256 .f32 := iblk1 V c 2 t
abbrev blkB1 (c : Dev nD) (t : Fin cfg1.N) : Vec Ideal S1x256 .f32 := iblk1 V c 3 t
abbrev blkWr1 (c : Dev nD) (t : Fin cfg1.N) : Vec Ideal S256x256 .f32 := iblk1 V c 4 t

/-- What the region leaves in its output array: the layer of the five arrays. -/
abbrev G1 (c : Dev nD) : Vec Ideal S50000x256 .f32 :=
  Cert.Sage.layer (arrAgg1 V c) (arrX1 V c) (arrWl1 V c) (arrWr1 V c) (fun q => arrB1 V c (ix2 0 q))

/-- The body's result at a point is the layer of the five blocks. -/
theorem out1_eq (c : Dev nD) (t : Fin cfg1.N) :
    out1_5 (F := Ideal) (iblk1 V c 0 t) (iblk1 V c 1 t) (iblk1 V c 2 t) (iblk1 V c 3 t) (iblk1 V c 4 t)
      = Cert.Sage.layer (blkAgg1 V c t) (blkX1 V c t) (blkWl1 V c t) (blkWr1 V c t) (fun q => blkB1 V c t (ix2 0 q)) := by
  unfold out1_5
  rw [View.canon_unit_zero hz2']
  simp only [View.ld_unit_zero (S := S2000x256) hz2', View.ld_unit_zero (S := S256x256) hz2', View.ld_unit_zero (S := S1x256) hz2']
  exact pay1_eq _ _ _ _ _

/-- WHAT POINT t WRITES BACK is block t of the layer of the arrays. -/
theorem flushed1_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5, out1_eq]
  obtain ⟨e00, e01, e10, e11, e20, e21, e30, e31, e40, e41, e51⟩ := idx_facts1 t
  funext j
  show Cert.Sage.layer (blkAgg1 V c t) (blkX1 V c t) (blkWl1 V c t) (blkWr1 V c t) (fun q => blkB1 V c t (ix2 0 q)) j
    = G1 V c (((cfg1.win 5).blk t).view.emb j)
  have hj0 : (j 0).val < 2000 := (j 0).isLt
  have hj1 : (j 1).val < 256 := (j 1).isLt
  refine Cert.Sage.layer_congr _ _ _ _ _ _ _ _ _ _ j (((cfg1.win 5).blk t).view.emb j) ?_ ?_ ?_ ?_ ?_
  · intro k
    show V c main_v43 (((cfg1.win 0).blk t).view.emb (ix2 (j 0) k)) = V c main_v43 (ix2 ((((cfg1.win 5).blk t).view.emb j) 0) k)
    refine congrArg _ (funext fun a => Fin.ext ?_)
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 256 + 1 * k.val = k.val; omega
  · intro k
    show V c main_v24 (((cfg1.win 1).blk t).view.emb (ix2 (j 0) k)) = V c main_v24 (ix2 ((((cfg1.win 5).blk t).view.emb j) 0) k)
    refine congrArg _ (funext fun a => Fin.ext ?_)
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 256 + 1 * k.val = k.val; omega
  · intro k
    show V c main_arg5 (((cfg1.win 2).blk t).view.emb (ix2 (j 1) k)) = V c main_arg5 (ix2 ((((cfg1.win 5).blk t).view.emb j) 1) k)
    refine congrArg _ (funext fun a => Fin.ext ?_)
    match a with
    | ⟨0, _⟩ => show win1_2.index t (0 : Fin 2) * 256 + 1 * (j 1).val = win1_5.index t (1 : Fin 2) * 256 + 1 * (j 1).val; omega
    | ⟨1, _⟩ => show win1_2.index t (1 : Fin 2) * 256 + 1 * k.val = k.val; omega
  · intro k
    show V c main_arg7 (((cfg1.win 4).blk t).view.emb (ix2 (j 1) k)) = V c main_arg7 (ix2 ((((cfg1.win 5).blk t).view.emb j) 1) k)
    refine congrArg _ (funext fun a => Fin.ext ?_)
    match a with
    | ⟨0, _⟩ => show win1_4.index t (0 : Fin 2) * 256 + 1 * (j 1).val = win1_5.index t (1 : Fin 2) * 256 + 1 * (j 1).val; omega
    | ⟨1, _⟩ => show win1_4.index t (1 : Fin 2) * 256 + 1 * k.val = k.val; omega
  · show V c main_v44 (((cfg1.win 3).blk t).view.emb (ix2 0 (j 1))) = V c main_v44 (ix2 0 ((((cfg1.win 5).blk t).view.emb j) 1))
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * (j 1).val = win1_5.index t (1 : Fin 2) * 256 + 1 * (j 1).val; omega

/-- An index of the output array is in point t's block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v45).slice (win1_5.rect t)).set ↔ _
  rw [View.set_slice_whole, Rect.mem_set_unit]
  exact Iff.rfl

/-- The 25 blocks tile the output: node r is in the block of point r / 2000. -/
theorem cover1 (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- THE OUTPUT ARRAY after the region: the layer of the arrays its windows read, as the region found them. -/
theorem region1_final (c : Dev nD) :
    (dat1 (F := Ideal) V c).arrAt 5 cfg1.N
      = Cert.Sage.layer (V c main_v43) (V c main_v24) (V c main_arg5) (V c main_arg7) (fun q => V c main_v44 (ix2 0 q)) :=
  (dat1 (F := Ideal) V c).arrAt_eq_of_cover 5 (G1 V c) (fun t _ => flushed1_eq V c t) cover1

end Cert.KernelIdeal.Sage

end
-- ==== Proof.KernelValue.lean ====
/-
  What the kernel program's result array holds after the run, at the extended reals, as one function of the arguments:
  two stacked layers of SageSpec, each on the neighbourhood mean of its input and on the input itself.

  The first pallas_call's output is the first layer of the input features; the host then takes that array's
  neighbourhood mean, and the second pallas_call's output is the second layer of the two.  Each bias reaches its
  kernel as a 1 × 256 row whose entry q is the bias vector's entry q.
-/
import proofs.«128896_j30794915512417_1_alg».proof.Proof.HostChain
import proofs.«128896_j30794915512417_1_alg».proof.Proof.Region0
import proofs.«128896_j30794915512417_1_alg».proof.Proof.Region1

set_option maxRecDepth 16384

noncomputable section

namespace Cert.KernelIdeal.Sage

open Idealize.ShloMosaic Idealize.ShloMosaic.TcCoe Idealize.ShloMosaic.ValueIdx Cert.KernelIdeal Cert.KernelIdeal.Gen
open Idealize.SL.Sem

/-- A vector of 256 recast as one row: the row's entry q is the vector's entry q. -/
theorem bias_row (b : FVec Ideal S256 .f32) (q : Fin 256) :
    shapeCast S1x256 b Facts₀.shapeCasts_S256_S1x256 (ix2 0 q) = b (ix1 q) :=
  shapeCast_apply b Facts₀.shapeCasts_S256_S1x256 (ix2 0 q) (ix1 q) (by
    rw [Shape.rowMajor_val_one, Shape.rowMajor_val_two]
    show q.val = 0 * 256 + q.val
    omega)

/-- The hidden features: the first layer, on the mean of the input features and the input features. -/
def hidden (x0 : FVec Ideal S50000x128 .f32) (x1 : (⟨S2x500000, .i32⟩ : BufTy).Contents (Elt Ideal))
    (x2 : FVec Ideal S256x128 .f32) (x3 : FVec Ideal S256 .f32) (x4 : FVec Ideal S256x128 .f32) : FVec Ideal S50000x256 .f32 :=
  Cert.Sage.layer (meanAgg128 x0 (srcOf x1) (dstOf x1)) x0 x2 x4 (fun q => x3 (ix1 q))

/-- The result: the second layer, on the mean of the hidden features and the hidden features. -/
def result (x0 : FVec Ideal S50000x128 .f32) (x1 : (⟨S2x500000, .i32⟩ : BufTy).Contents (Elt Ideal))
    (x2 : FVec Ideal S256x128 .f32) (x3 : FVec Ideal S256 .f32) (x4 : FVec Ideal S256x128 .f32)
    (x5 : FVec Ideal S256x256 .f32) (x6 : FVec Ideal S256 .f32) (x7 : FVec Ideal S256x256 .f32) : FVec Ideal S50000x256 .f32 :=
  Cert.Sage.layer (meanAgg256 (hidden x0 x1 x2 x3 x4) (srcOf x1) (dstOf x1)) (hidden x0 x1 x2 x3 x4) x5 x7 (fun q => x6 (ix1 q))

variable (m : (ℓ : Loc nD τ sig) → Buf (Elt Ideal) ℓ) (ρ : Dev nD → PrngReg)

/-- After the first pallas_call its output array holds the hidden features of the arguments. -/
theorem W2_hidden (c : Dev nD) :
    W2 m ρ c (Proc.devRef .tc main_v24)
      = hidden (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ?_
  rw [region0_final (V1 m ρ) c, V1_agg, V1_arg0, V1_arg2, V1_arg4, V1_bias]
  unfold hidden
  exact congrArg (Cert.Sage.layer _ _ _ _) (funext fun q => bias_row _ q)

/-- After the second pallas_call the result array holds the result of the arguments. -/
theorem W4_result (c : Dev nD) :
    W4 m ρ c (Proc.devRef .tc main_v45)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (W4_arr m ρ c 5).trans ?_
  rw [region1_final (V3 m ρ) c, V3_agg, V3_hidden, V3_arg5, V3_arg7, V3_bias, W2_hidden]
  unfold result
  exact congrArg (Cert.Sage.layer _ _ _ _) (funext fun q => bias_row _ q)

end Cert.KernelIdeal.Sage

end
-- ==== Proof.RefValue.lean ====
/-
  The reference program, read one layer at a time at the extended reals: what it holds after each ReLU is the layer
  of SageSpec applied to the neighbourhood mean it computed just before and to that layer's own input.

  Each `dot_general` contracts the 128 (or 256) input features of a node's row against a row of the weight matrix —
  the program transposes the weight first, so the transposed matrix read at (k, j) is the weight at (j, k) —, the bias
  is broadcast down the nodes, and the maximum with the zero splat is the ReLU.
-/
import proofs.«128896_j30794915512417_1_alg».proof.Proof.Gen.ReferenceIdeal.Run
import proofs.«128896_j30794915512417_1_alg».proof.Proof.Gen.ReferenceIdeal.Read
import proofs.«128896_j30794915512417_1_alg».proof.Proof.SageSpec

noncomputable section

open scoped BigOperators

namespace Cert.ReferenceIdeal.Sage

open Idealize.ShloMosaic Idealize.ShloMosaic.ValueIdx Cert.ReferenceIdeal Cert.ReferenceIdeal.Read

/-- After the first ReLU: the layer on the mean of the input features (`val_main_v22`) and the input features. -/
theorem layer1_eq (x0 : (⟨S50000x128, .f32⟩ : BufTy).Contents (Elt Ideal)) (x1 : (⟨S2x500000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v31 (F := Ideal) x0 x1 x2 x3 x4
      = Cert.Sage.layer (val_main_v22 (F := Ideal) x0 x1) x0 x2 x4 (fun q => x3 (ix1 q)) := by
  funext i
  obtain ⟨r, j, rfl⟩ : ∃ (r : Fin 50000) (j : Fin 256), i = ix2 r j := ⟨i 0, i 1, eq_ix2 i⟩
  rw [Cert.Sage.layer_ix2]
  unfold Cert.Sage.layerAt
  rw [val_main_v31_apply, val_main_v30_apply, val_main_v27_apply, val_main_v24_apply, val_main_v29_apply,
    val_main_v26_apply, val_main_v25_apply, val_main_call0_v0_apply, val_main_call0_cst_apply]
  simp only [val_main_v23_apply, val_main_v28_apply]
  have hl24 : ∀ k : Fin 128, lidx_main_v24 (ix2 r j) k = ix2 r k :=
    fun k => funext fun a => match a with | ⟨0, _⟩ => rfl | ⟨1, _⟩ => rfl
  have hr24 : ∀ k : Fin 128, idx_main_v23 (ridx_main_v24 (ix2 r j) k) = ix2 j k :=
    fun k => funext fun a => match a with | ⟨0, _⟩ => rfl | ⟨1, _⟩ => rfl
  have hl29 : ∀ k : Fin 128, lidx_main_v29 (ix2 r j) k = ix2 r k :=
    fun k => funext fun a => match a with | ⟨0, _⟩ => rfl | ⟨1, _⟩ => rfl
  have hr29 : ∀ k : Fin 128, idx_main_v28 (ridx_main_v29 (ix2 r j) k) = ix2 j k :=
    fun k => funext fun a => match a with | ⟨0, _⟩ => rfl | ⟨1, _⟩ => rfl
  have hb : idx_main_v25 (idx_main_v26 (ix2 r j)) = ix1 j :=
    funext fun a => match a with | ⟨0, _⟩ => rfl
  simp only [hl24, hr24, hl29, hr29, hb, Ideal.maximumf_def, Ideal.addf_def, Ideal.ofBits_def, Ideal.ofBits_zero_f32]

/-- After the second ReLU: the layer on the mean of the hidden features (`val_main_v50`) and the hidden features
    (`val_main_v31`, what the first ReLU left). -/
theorem layer2_eq (x0 : (⟨S50000x128, .f32⟩ : BufTy).Contents (Elt Ideal)) (x1 : (⟨S2x500000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) (x5 : (⟨S256x256, .f32⟩ : BufTy).Contents (Elt Ideal))
    (x6 : (⟨S256, .f32⟩ : BufTy).Contents (Elt Ideal)) (x7 : (⟨S256x256, .f32⟩ : BufTy).Contents (Elt Ideal)) :
    val_main_v59 (F := Ideal) x0 x1 x2 x3 x4 x5 x6 x7
      = Cert.Sage.layer (val_main_v50 (F := Ideal) x0 x1 x2 x3 x4) (val_main_v31 (F := Ideal) x0 x1 x2 x3 x4) x5 x7
          (fun q => x6 (ix1 q)) := by
  funext i
  obtain ⟨r, j, rfl⟩ : ∃ (r : Fin 50000) (j : Fin 256), i = ix2 r j := ⟨i 0, i 1, eq_ix2 i⟩
  rw [Cert.Sage.layer_ix2]
  unfold Cert.Sage.layerAt
  rw [val_main_v59_apply, val_main_v58_apply, val_main_v55_apply, val_main_v52_apply, val_main_v57_apply,
    val_main_v54_apply, val_main_v53_apply, val_main_call1_v0_apply, val_main_call1_cst_apply]
  simp only [val_main_v51_apply, val_main_v56_apply]
  have hl52 : ∀ k : Fin 256, lidx_main_v52 (ix2 r j) k = ix2 r k :=
    fun k => funext fun a => match a with | ⟨0, _⟩ => rfl | ⟨1, _⟩ => rfl
  have hr52 : ∀ k : Fin 256, idx_main_v51 (ridx_main_v52 (ix2 r j) k) = ix2 j k :=
    fun k => funext fun a => match a with | ⟨0, _⟩ => rfl | ⟨1, _⟩ => rfl
  have hl57 : ∀ k : Fin 256, lidx_main_v57 (ix2 r j) k = ix2 r k :=
    fun k => funext fun a => match a with | ⟨0, _⟩ => rfl | ⟨1, _⟩ => rfl
  have hr57 : ∀ k : Fin 256, idx_main_v56 (ridx_main_v57 (ix2 r j) k) = ix2 j k :=
    fun k => funext fun a => match a with | ⟨0, _⟩ => rfl | ⟨1, _⟩ => rfl
  have hb : idx_main_v53 (idx_main_v54 (ix2 r j)) = ix1 j :=
    funext fun a => match a with | ⟨0, _⟩ => rfl
  simp only [hl52, hr52, hl57, hr57, hb, Ideal.maximumf_def, Ideal.addf_def, Ideal.ofBits_def, Ideal.ofBits_zero_f32]

end Cert.ReferenceIdeal.Sage

end
-- ==== Proof.AggBridge.lean ====
/-
  The reference's two neighbourhood means are the ones named in MeanAgg: the same host operations, in the same order,
  on the same operands — the reference's text spells the shapes and the dimension records in its own namespace, and
  they are the same shapes and records.
-/
import proofs.«128896_j30794915512417_1_alg».proof.Proof.Gen.ReferenceIdeal.Read
import proofs.«128896_j30794915512417_1_alg».proof.Proof.MeanAgg

noncomputable section

namespace Cert.ReferenceIdeal.Sage

open Idealize.ShloMosaic Cert.ReferenceIdeal Cert.ReferenceIdeal.Read
open Cert.KernelIdeal.Sage (meanAgg128 meanAgg256 srcOf dstOf srcCol degree)

/-- The mean the reference divides out before its first layer. -/
theorem agg128_eq (x0 : (⟨S50000x128, .f32⟩ : BufTy).Contents (Elt Ideal)) (x1 : (⟨S2x500000, .i32⟩ : BufTy).Contents (Elt Ideal)) :
    val_main_v22 (F := Ideal) x0 x1 = meanAgg128 x0 (srcOf x1) (dstOf x1) := by
  unfold val_main_v22 val_main_v13 val_main_v21 val_main_v20 val_main_v19 val_main_v18 val_main_v17 val_main_v16 val_main_v15
    val_main_v14 val_main_v12 val_main_v11 val_main_v10 val_main_v9 val_main_v8 val_main_v7 val_main_v6 val_main_v5 val_main_v4
    val_main_v3 val_main_v2 val_main_v1 val_main_v0 val_main_c val_main_c_0 val_main_cst val_main_cst_1 val_main_cst_2 val_main_cst_3
    meanAgg128 srcCol degree srcOf dstOf
  rfl

/-- The mean the reference divides out before its second layer, of what its first ReLU left. -/
theorem agg256_eq (x0 : (⟨S50000x128, .f32⟩ : BufTy).Contents (Elt Ideal)) (x1 : (⟨S2x500000, .i32⟩ : BufTy).Contents (Elt Ideal))
    (x2 : (⟨S256x128, .f32⟩ : BufTy).Contents (Elt Ideal)) (x3 : (⟨S256, .f32⟩ : BufTy).Contents (Elt Ideal))
    (x4 : (⟨S256x128, .f32⟩ : BufTy).Contents (Elt Ideal)) :
    val_main_v50 (F := Ideal) x0 x1 x2 x3 x4 = meanAgg256 (val_main_v31 (F := Ideal) x0 x1 x2 x3 x4) (srcOf x1) (dstOf x1) := by
  unfold val_main_v50 val_main_v41 val_main_v49 val_main_v48 val_main_v47 val_main_v46 val_main_v45 val_main_v44 val_main_v43
    val_main_v42 val_main_v40 val_main_v39 val_main_v38 val_main_v37 val_main_v36 val_main_v35 val_main_v34 val_main_v33 val_main_v32
    val_main_v3 val_main_v2 val_main_v1 val_main_v0 val_main_c_4 val_main_c_5 val_main_cst_6 val_main_cst_7 val_main_cst_8 val_main_cst_9
    meanAgg256 srcCol degree srcOf dstOf
  rfl

end Cert.ReferenceIdeal.Sage

end
-- ==== Proof.lean ====
/-
  Two stacked GraphSAGE layers (mean aggregation), the kernel program against its jnp reference, over the extended reals.

  Both programs take, before each layer, the neighbourhood mean of the layer's input on the host — gather the rows at
  the edges' sources, add them into the edges' destinations, divide by max(edge count, 1) — with the same operations
  in the same order (MeanAgg, AggBridge).  The layer itself,

      out[r, j] = max ( (Σ_k mean[r,k] · Wl[j,k] + b[j]) + Σ_k h[r,k] · Wr[j,k] , 0 ),

  is one fused pallas_call in the kernel program — 25 blocks of 2000 nodes, bf16 operands (exact on the extended
  reals), each weight block transposed inside the body (Payload0/1, Region0/1) — and two `dot_general`s against
  transposed weights, two additions and a ReLU in the reference (RefValue).  Entry by entry both are the layer of
  SageSpec, with the additions grouped the same way, so no law of the extended reals beyond 0 + x = x is used and the
  finiteness of the inputs is never opened.  The kernel program's result is read off its run (RunValue, HostChain,
  KernelValue); the reference's off its generated run.  The idealization rewrote nothing, so `preserves` is `True`.
-/
import proofs.«128896_j30794915512417_1_alg».proof.Defs
import proofs.«128896_j30794915512417_1_alg».proof.Proof.Gen.Kernel
import proofs.«128896_j30794915512417_1_alg».proof.Proof.Gen.Kernel.Frame
import proofs.«128896_j30794915512417_1_alg».proof.Proof.Gen.KernelIdeal
import proofs.«128896_j30794915512417_1_alg».proof.Proof.Gen.KernelIdeal.Frame
import proofs.«128896_j30794915512417_1_alg».proof.Proof.Gen.ReferenceIdeal
import proofs.«128896_j30794915512417_1_alg».proof.Proof.Gen.ReferenceIdeal.Run
import proofs.«128896_j30794915512417_1_alg».proof.Proof.Gen.ReferenceIdeal.Read
import proofs.«128896_j30794915512417_1_alg».proof.Proof.Gen.Pre_finite_inputs
import proofs.«128896_j30794915512417_1_alg».proof.Proof.RunValue
import proofs.«128896_j30794915512417_1_alg».proof.Proof.KernelValue
import proofs.«128896_j30794915512417_1_alg».proof.Proof.RefValue
import proofs.«128896_j30794915512417_1_alg».proof.Proof.AggBridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result, as a function of its arguments, is the kernel program's: layer by layer each side is the
    layer of SageSpec on the same neighbourhood mean and the same input. -/
theorem ref_result (x0 : (⟨Cert.ReferenceIdeal.S50000x128, .f32⟩ : BufTy).Contents (Elt Ideal))
    (x1 : (⟨Cert.ReferenceIdeal.S2x500000, .i32⟩ : BufTy).Contents (Elt Ideal))
    (x2 : (⟨Cert.ReferenceIdeal.S256x128, .f32⟩ : BufTy).Contents (Elt Ideal))
    (x3 : (⟨Cert.ReferenceIdeal.S256, .f32⟩ : BufTy).Contents (Elt Ideal))
    (x4 : (⟨Cert.ReferenceIdeal.S256x128, .f32⟩ : BufTy).Contents (Elt Ideal))
    (x5 : (⟨Cert.ReferenceIdeal.S256x256, .f32⟩ : BufTy).Contents (Elt Ideal))
    (x6 : (⟨Cert.ReferenceIdeal.S256, .f32⟩ : BufTy).Contents (Elt Ideal))
    (x7 : (⟨Cert.ReferenceIdeal.S256x256, .f32⟩ : BufTy).Contents (Elt Ideal)) :
    Cert.ReferenceIdeal.Read.val_main_v59 (F := Ideal) x0 x1 x2 x3 x4 x5 x6 x7
      = Cert.KernelIdeal.Sage.result x0 x1 x2 x3 x4 x5 x6 x7 := by
  rw [Cert.ReferenceIdeal.Sage.layer2_eq, Cert.ReferenceIdeal.Sage.agg256_eq, Cert.ReferenceIdeal.Sage.layer1_eq,
    Cert.ReferenceIdeal.Sage.agg128_eq]
  rfl

theorem algebraic : Cert.algebraic_KernelIdeal_ReferenceIdeal := by
  intro m ρ m' ρ' _ hagree
  refine ⟨fun c => Cert.KernelIdeal.Sage.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Sage.W4_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v59_eq, ref_result, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
